-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v80)) (v1 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_v33) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096 : Shape := ⟨1, ![4096]⟩
abbrev S2048x4096 : Shape := ⟨2, ![2048, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x4096 .f32) (main_arg1 : FVec F S4096 .f32) (main_arg2 : FVec F S4096 .f32) (main_arg3 : IVec S2048x4096 32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4096x4096 : Shape := ⟨2, ![4096, 4096]⟩
abbrev S4096 : Shape := ⟨1, ![4096]⟩
abbrev S2048x4096 : Shape := ⟨2, ![2048, 4096]⟩
abbrev S_ : Shape := ⟨0, ![]⟩
abbrev S1 : Shape := ⟨1, ![1]⟩
abbrev S4095 : Shape := ⟨1, ![4095]⟩
abbrev S4095x1 : Shape := ⟨2, ![4095, 1]⟩
abbrev S4095x2 : Shape := ⟨2, ![4095, 2]⟩
abbrev S2048x1 : Shape := ⟨2, ![2048, 1]⟩
abbrev S2048 : Shape := ⟨1, ![2048]⟩
abbrev S2048x4095 : Shape := ⟨2, ![2048, 4095]⟩
abbrev S8386560 : Shape := ⟨1, ![8386560]⟩
abbrev S8386560x1 : Shape := ⟨2, ![8386560, 1]⟩
abbrev S8386560x2 : Shape := ⟨2, ![8386560, 2]⟩
abbrev S1x1 : Shape := ⟨2, ![1, 1]⟩
abbrev S512x4096 : Shape := ⟨2, ![512, 4096]⟩
abbrev S512 : Shape := ⟨1, ![512]⟩
abbrev S512x1 : Shape := ⟨2, ![512, 1]⟩

abbrev nBuf : Space → Nat
  | .hbm => 113
  | .vmem => 5
  | .smem => 0
  | _ => 0

abbrev bufTy : (tb : Table) → Fin (tcTables nBuf tb) → BufTy
  | .hbm, ⟨0, _⟩ => ⟨S4096x4096, .f32⟩
  | .hbm, ⟨1, _⟩ => ⟨S4096, .f32⟩
  | .hbm, ⟨2, _⟩ => ⟨S4096, .f32⟩
  | .hbm, ⟨3, _⟩ => ⟨S2048x4096, .i32⟩
  | .hbm, ⟨4, _⟩ => ⟨S4096, .i32⟩
  | .hbm, ⟨5, _⟩ => ⟨S_, .f32⟩
  | .hbm, ⟨6, _⟩ => ⟨S4096, .f32⟩
  | .hbm, ⟨7, _⟩ => ⟨S_, .i32⟩
  | .hbm, ⟨8, _⟩ => ⟨S1, .i32⟩
  | .hbm, ⟨9, _⟩ => ⟨S_, .f32⟩
  | .hbm, ⟨10, _⟩ => ⟨S4096, .f32⟩
  | .hbm, ⟨11, _⟩ => ⟨S_, .f32⟩
  | .hbm, ⟨12, _⟩ => ⟨S4096, .f32⟩
  | .hbm, ⟨13, _⟩ => ⟨S_, .i32⟩
  | .hbm, ⟨14, _⟩ => ⟨S1, .i32⟩
  | .hbm, ⟨15, _⟩ => ⟨S_, .f32⟩
  | .hbm, ⟨16, _⟩ => ⟨S4096, .f32⟩
  | .hbm, ⟨17, _⟩ => ⟨S_, .f32⟩
  | .hbm, ⟨18, _⟩ => ⟨S4096x4096, .f32⟩
  | .hbm, ⟨19, _⟩ => ⟨S4095, .i32⟩
  | .hbm, ⟨20, _⟩ => ⟨S4095, .i32⟩
  | .hbm, ⟨21, _⟩ => ⟨S_, .i32⟩
  | .hbm, ⟨22, _⟩ => ⟨S4095, .i32⟩
  | .hbm, ⟨23, _⟩ => ⟨S4095, .i1⟩
  | .hbm, ⟨24, _⟩ => ⟨S_, .i32⟩
  | .hbm, ⟨25, _⟩ => ⟨S4095, .i32⟩
  | .hbm, ⟨26, _⟩ => ⟨S4095, .i32⟩
  | .hbm, ⟨27, _⟩ => ⟨S4095, .i32⟩
  | .hbm, ⟨28, _⟩ => ⟨S_, .i32⟩
  | .hbm, ⟨29, _⟩ => ⟨S4095, .i32⟩
  | .hbm, ⟨30, _⟩ => ⟨S4095, .i1⟩
  | .hbm, ⟨31, _⟩ => ⟨S_, .i32⟩
  | .hbm, ⟨32, _⟩ => ⟨S4095, .i32⟩
  | .hbm, ⟨33, _⟩ => ⟨S4095, .i32⟩
  | .hbm, ⟨34, _⟩ => ⟨S4095, .i32⟩
  | .hbm, ⟨35, _⟩ => ⟨S4095x1, .i32⟩
  | .hbm, ⟨36, _⟩ => ⟨S4095x1, .i32⟩
  | .hbm, ⟨37, _⟩ => ⟨S4095x2, .i32⟩
  | .hbm, ⟨38, _⟩ => ⟨S_, .f32⟩
  | .hbm, ⟨39, _⟩ => ⟨S4095, .f32⟩
  | .hbm, ⟨40, _⟩ => ⟨S4096x4096, .f32⟩
  | .hbm, ⟨41, _⟩ => ⟨S4096, .f32⟩
  | .hbm, ⟨42, _⟩ => ⟨S_, .f32⟩
  | .hbm, ⟨43, _⟩ => ⟨S_, .f32⟩
  | .hbm, ⟨44, _⟩ => ⟨S4096, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S4096x4096, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S2048x1, .i32⟩
  | .hbm, ⟨54, _⟩ => ⟨S2048, .i32⟩
  | .hbm, ⟨55, _⟩ => ⟨S_, .i32⟩
  | .hbm, ⟨56, _⟩ => ⟨S2048, .i32⟩
  | .hbm, ⟨57, _⟩ => ⟨S2048, .i1⟩
  | .hbm, ⟨58, _⟩ => ⟨S_, .i32⟩
  | .hbm, ⟨59, _⟩ => ⟨S2048, .i32⟩
  | .hbm, ⟨60, _⟩ => ⟨S2048, .i32⟩
  | .hbm, ⟨61, _⟩ => ⟨S2048, .i32⟩
  | .hbm, ⟨62, _⟩ => ⟨S2048x1, .i32⟩
  | .hbm, ⟨63, _⟩ => ⟨S_, .f32⟩
  | .hbm, ⟨64, _⟩ => ⟨S2048, .f32⟩
  | .hbm, ⟨65, _⟩ => ⟨S4096, .f32⟩
  | .hbm, ⟨66, _⟩ => ⟨S2048x1, .i32⟩
  | .hbm, ⟨67, _⟩ => ⟨S2048, .i32⟩
  | .hbm, ⟨68, _⟩ => ⟨S_, .i32⟩
  | .hbm, ⟨69, _⟩ => ⟨S2048, .i32⟩
  | .hbm, ⟨70, _⟩ => ⟨S2048, .i1⟩
  | .hbm, ⟨71, _⟩ => ⟨S_, .i32⟩
  | .hbm, ⟨72, _⟩ => ⟨S2048, .i32⟩
  | .hbm, ⟨73, _⟩ => ⟨S2048, .i32⟩
  | .hbm, ⟨74, _⟩ => ⟨S2048, .i32⟩
  | .hbm, ⟨75, _⟩ => ⟨S2048x1, .i32⟩
  | .hbm, ⟨76, _⟩ => ⟨S_, .f32⟩
  | .hbm, ⟨77, _⟩ => ⟨S2048, .f32⟩
  | .hbm, ⟨78, _⟩ => ⟨S4096, .f32⟩
  | .hbm, ⟨79, _⟩ => ⟨S2048x4095, .i32⟩
  | .hbm, ⟨80, _⟩ => ⟨S8386560, .i32⟩
  | .hbm, ⟨81, _⟩ => ⟨S2048x4095, .i32⟩
  | .hbm, ⟨82, _⟩ => ⟨S8386560, .i32⟩
  | .hbm, ⟨83, _⟩ => ⟨S_, .i32⟩
  | .hbm, ⟨84, _⟩ => ⟨S8386560, .i32⟩
  | .hbm, ⟨85, _⟩ => ⟨S8386560, .i1⟩
  | .hbm, ⟨86, _⟩ => ⟨S_, .i32⟩
  | .hbm, ⟨87, _⟩ => ⟨S8386560, .i32⟩
  | .hbm, ⟨88, _⟩ => ⟨S8386560, .i32⟩
  | .hbm, ⟨89, _⟩ => ⟨S8386560, .i32⟩
  | .hbm, ⟨90, _⟩ => ⟨S_, .i32⟩
  | .hbm, ⟨91, _⟩ => ⟨S8386560, .i32⟩
  | .hbm, ⟨92, _⟩ => ⟨S8386560, .i1⟩
  | .hbm, ⟨93, _⟩ => ⟨S_, .i32⟩
  | .hbm, ⟨94, _⟩ => ⟨S8386560, .i32⟩
  | .hbm, ⟨95, _⟩ => ⟨S8386560, .i32⟩
  | .hbm, ⟨96, _⟩ => ⟨S8386560, .i32⟩
  | .hbm, ⟨97, _⟩ => ⟨S8386560x1, .i32⟩
  | .hbm, ⟨98, _⟩ => ⟨S8386560x1, .i32⟩
  | .hbm, ⟨99, _⟩ => ⟨S8386560x2, .i32⟩
  | .hbm, ⟨100, _⟩ => ⟨S_, .f32⟩
  | .hbm, ⟨101, _⟩ => ⟨S8386560, .f32⟩
  | .hbm, ⟨102, _⟩ => ⟨S4096x4096, .f32⟩
  | .hbm, ⟨103, _⟩ => ⟨S1x1, .f32⟩
  | .hbm, ⟨104, _⟩ => ⟨S_, .f32⟩
  | .hbm, ⟨105, _⟩ => ⟨S4096, .f32⟩
  | .hbm, ⟨106, _⟩ => ⟨S_, .f32⟩
  | .hbm, ⟨107, _⟩ => ⟨S_, .f32⟩
  | .hbm, ⟨108, _⟩ => ⟨S4096, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S_, .f32⟩
  | .local _ .vmem, ⟨0, _⟩ => ⟨S512x4096, .f32⟩
  | .local _ .vmem, ⟨1, _⟩ => ⟨S512x4096, .f32⟩
  | .local _ .vmem, ⟨2, _⟩ => ⟨S512x4096, .f32⟩
  | .local _ .vmem, ⟨3, _⟩ => ⟨S512x4096, .f32⟩
  | .local _ .vmem, ⟨4, _⟩ => ⟨S1x1, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_c_2 : Ref sig .tc := ⟨.hbm, 13, rfl⟩
abbrev main_v5 : Ref sig .tc := ⟨.hbm, 14, rfl⟩
abbrev main_cst_3 : Ref sig .tc := ⟨.hbm, 15, rfl⟩
abbrev main_v6 : Ref sig .tc := ⟨.hbm, 16, rfl⟩
abbrev main_cst_4 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c_5 : Ref sig .tc := ⟨.hbm, 21, rfl⟩
abbrev main_v10 : Ref sig .tc := ⟨.hbm, 22, rfl⟩
abbrev main_v11 : Ref sig .tc := ⟨.hbm, 23, rfl⟩
abbrev main_c_6 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c_7 : Ref sig .tc := ⟨.hbm, 28, rfl⟩
abbrev main_v15 : Ref sig .tc := ⟨.hbm, 29, rfl⟩
abbrev main_v16 : Ref sig .tc := ⟨.hbm, 30, rfl⟩
abbrev main_c_8 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_9 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_10 : Ref sig .tc := ⟨.hbm, 42, rfl⟩
abbrev main_v26 : Ref sig .tc := ⟨.hbm, 43, rfl⟩
abbrev main_v27 : Ref sig .tc := ⟨.hbm, 44, rfl⟩
abbrev main_cst_11 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_12 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_13 : Ref sig .tc := ⟨.hbm, 55, rfl⟩
abbrev main_v36 : Ref sig .tc := ⟨.hbm, 56, rfl⟩
abbrev main_v37 : Ref sig .tc := ⟨.hbm, 57, rfl⟩
abbrev main_c_14 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_15 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_c_16 : Ref sig .tc := ⟨.hbm, 68, rfl⟩
abbrev main_v46 : Ref sig .tc := ⟨.hbm, 69, rfl⟩
abbrev main_v47 : Ref sig .tc := ⟨.hbm, 70, rfl⟩
abbrev main_c_17 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_18 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_c_19 : Ref sig .tc := ⟨.hbm, 83, rfl⟩
abbrev main_v58 : Ref sig .tc := ⟨.hbm, 84, rfl⟩
abbrev main_v59 : Ref sig .tc := ⟨.hbm, 85, rfl⟩
abbrev main_c_20 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_c_21 : Ref sig .tc := ⟨.hbm, 90, rfl⟩
abbrev main_v63 : Ref sig .tc := ⟨.hbm, 91, rfl⟩
abbrev main_v64 : Ref sig .tc := ⟨.hbm, 92, rfl⟩
abbrev main_c_22 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_cst_23 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_24 : Ref sig .tc := ⟨.hbm, 106, rfl⟩
abbrev main_v76 : Ref sig .tc := ⟨.hbm, 107, rfl⟩
abbrev main_v77 : Ref sig .tc := ⟨.hbm, 108, rfl⟩
abbrev main_cst_25 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  bcast_S_S4096 : S_.BroadcastsInDim S4096 (![] : Fin 0 → Fin S4096.rank)
  bcast_S_S1 : S_.BroadcastsInDim S1 (![] : Fin 0 → Fin S1.rank)
  bcast_S_S4096x4096 : S_.BroadcastsInDim S4096x4096 (![] : Fin 0 → Fin S4096x4096.rank)
  slices_S4096_S4095_0 : S4096.Slices ![0] S4095
  slices_S4096_S4095_1 : S4096.Slices ![1] S4095
  bcast_S_S4095 : S_.BroadcastsInDim S4095 (![] : Fin 0 → Fin S4095.rank)
  bcast_S4095_S4095x1_0 : S4095.BroadcastsInDim S4095x1 (![0] : Fin 1 → Fin S4095x1.rank)
  concatenates_S4095x1_S4095x1_S4095x2_d1 : Shape.Concatenates [S4095x1, S4095x1] S4095x2 1
  reducesTo_S4096_S_d0 : S4096.ReducesTo [0] S_
  h_S_ : 0 < S_.numel
  reducesTo_S4096x4096_S_d0_1 : S4096x4096.ReducesTo [0, 1] S_
  slices_S2048x4096_S2048x1_0_0 : S2048x4096.Slices ![0, 0] S2048x1
  shapeCasts_S2048x1_S2048 : S2048x1.ShapeCasts S2048
  bcast_S_S2048 : S_.BroadcastsInDim S2048 (![] : Fin 0 → Fin S2048.rank)
  bcast_S2048_S2048x1_0 : S2048.BroadcastsInDim S2048x1 (![0] : Fin 1 → Fin S2048x1.rank)
  slices_S2048x4096_S2048x1_0_4095 : S2048x4096.Slices ![0, 4095] S2048x1
  slices_S2048x4096_S2048x4095_0_0 : S2048x4096.Slices ![0, 0] S2048x4095
  shapeCasts_S2048x4095_S8386560 : S2048x4095.ShapeCasts S8386560
  slices_S2048x4096_S2048x4095_0_1 : S2048x4096.Slices ![0, 1] S2048x4095
  bcast_S_S8386560 : S_.BroadcastsInDim S8386560 (![] : Fin 0 → Fin S8386560.rank)
  bcast_S8386560_S8386560x1_0 : S8386560.BroadcastsInDim S8386560x1 (![0] : Fin 1 → Fin S8386560x1.rank)
  concatenates_S8386560x1_S8386560x1_S8386560x2_d1 : Shape.Concatenates [S8386560x1, S8386560x1] S8386560x2 1
  inb_S1x1_S1x1_0_0 : ∀ a, (![0, 0] : Fin 2 → Nat) a + S1x1.size a ≤ S1x1.size a
  h_S1x1 : 0 < S1x1.numel
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  reduces_S512x4096_S512 : S512x4096.Reduces [1] S512
  shapeCasts_S512_S512x1 : S512.ShapeCasts S512x1
  reduces_S512x1_S1 : S512x1.Reduces [0] S1
  shapeCasts_S1_S1x1 : S1.ShapeCasts S1x1
  shapeCasts_S1x1_S1x1 : S1x1.ShapeCasts S1x1
  shapeCasts_S1x1_S_ : S1x1.ShapeCasts S_
  scatter_S4096_S1_S__n_0_0_0_wf : ScatterDims.WF S4096 S1 S_ [] [0] [0] 0
  scatter_S4096x4096_S4095x2_S4095_n_01_01_1_wf : ScatterDims.WF S4096x4096 S4095x2 S4095 [] [0, 1] [0, 1] 1
  scatter_S4096_S2048x1_S2048_n_0_0_1_wf : ScatterDims.WF S4096 S2048x1 S2048 [] [0] [0] 1
  scatter_S4096x4096_S8386560x2_S8386560_n_01_01_1_wf : ScatterDims.WF S4096x4096 S8386560x2 S8386560 [] [0, 1] [0, 1] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .f32 = 32 ∨ (Rect.block (s := S4096x4096) S512x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

def scatter_S4096_S1_S__n_0_0_0 : ScatterDims S4096 S1 S_ where
  updateWindowDims := []
  insertedWindowDims := [0]
  scatterDimsToOperandDims := [0]
  indexVectorDim := 0
  wf := scatter_S4096_S1_S__n_0_0_0_wf
def scatter_S4096x4096_S4095x2_S4095_n_01_01_1 : ScatterDims S4096x4096 S4095x2 S4095 where
  updateWindowDims := []
  insertedWindowDims := [0, 1]
  scatterDimsToOperandDims := [0, 1]
  indexVectorDim := 1
  wf := scatter_S4096x4096_S4095x2_S4095_n_01_01_1_wf
def scatter_S4096_S2048x1_S2048_n_0_0_1 : ScatterDims S4096 S2048x1 S2048 where
  updateWindowDims := []
  insertedWindowDims := [0]
  scatterDimsToOperandDims := [0]
  indexVectorDim := 1
  wf := scatter_S4096_S2048x1_S2048_n_0_0_1_wf
def scatter_S4096x4096_S8386560x2_S8386560_n_01_01_1 : ScatterDims S4096x4096 S8386560x2 S8386560 where
  updateWindowDims := []
  insertedWindowDims := [0, 1]
  scatterDimsToOperandDims := [0, 1]
  indexVectorDim := 1
  wf := scatter_S4096x4096_S8386560x2_S8386560_n_01_01_1_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v72) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v73) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S4096 : Shape := ⟨1, ![4096]⟩
abbrev S2048x4096 : Shape := ⟨2, ![2048, 4096]⟩
abbrev S_ : Shape := ⟨0, ![]⟩
abbrev S1 : Shape := ⟨1, ![1]⟩
abbrev S4095 : Shape := ⟨1, ![4095]⟩
abbrev S4095x1 : Shape := ⟨2, ![4095, 1]⟩
abbrev S4095x2 : Shape := ⟨2, ![4095, 2]⟩
abbrev S2048x1 : Shape := ⟨2, ![2048, 1]⟩
abbrev S2048 : Shape := ⟨1, ![2048]⟩
abbrev S2048x4095 : Shape := ⟨2, ![2048, 4095]⟩
abbrev S8386560 : Shape := ⟨1, ![8386560]⟩
abbrev S8386560x1 : Shape := ⟨2, ![8386560, 1]⟩
abbrev S8386560x2 : Shape := ⟨2, ![8386560, 2]⟩

abbrev nBuf : Space → Nat
  | .hbm => 114
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096, .f32⟩
  | .hbm, ⟨2, _⟩ => ⟨S4096, .f32⟩
  | .hbm, ⟨3, _⟩ => ⟨S2048x4096, .i32⟩
  | .hbm, ⟨4, _⟩ => ⟨S4096, .i32⟩
  | .hbm, ⟨5, _⟩ => ⟨S_, .f32⟩
  | .hbm, ⟨6, _⟩ => ⟨S4096, .f32⟩
  | .hbm, ⟨7, _⟩ => ⟨S_, .i32⟩
  | .hbm, ⟨8, _⟩ => ⟨S1, .i32⟩
  | .hbm, ⟨9, _⟩ => ⟨S_, .f32⟩
  | .hbm, ⟨10, _⟩ => ⟨S4096, .f32⟩
  | .hbm, ⟨11, _⟩ => ⟨S_, .f32⟩
  | .hbm, ⟨12, _⟩ => ⟨S4096, .f32⟩
  | .hbm, ⟨13, _⟩ => ⟨S_, .i32⟩
  | .hbm, ⟨14, _⟩ => ⟨S1, .i32⟩
  | .hbm, ⟨15, _⟩ => ⟨S_, .f32⟩
  | .hbm, ⟨16, _⟩ => ⟨S4096, .f32⟩
  | .hbm, ⟨17, _⟩ => ⟨S_, .f32⟩
  | .hbm, ⟨18, _⟩ => ⟨S4096x4096, .f32⟩
  | .hbm, ⟨19, _⟩ => ⟨S4095, .i32⟩
  | .hbm, ⟨20, _⟩ => ⟨S4095, .i32⟩
  | .hbm, ⟨21, _⟩ => ⟨S_, .i32⟩
  | .hbm, ⟨22, _⟩ => ⟨S4095, .i32⟩
  | .hbm, ⟨23, _⟩ => ⟨S4095, .i1⟩
  | .hbm, ⟨24, _⟩ => ⟨S_, .i32⟩
  | .hbm, ⟨25, _⟩ => ⟨S4095, .i32⟩
  | .hbm, ⟨26, _⟩ => ⟨S4095, .i32⟩
  | .hbm, ⟨27, _⟩ => ⟨S4095, .i32⟩
  | .hbm, ⟨28, _⟩ => ⟨S_, .i32⟩
  | .hbm, ⟨29, _⟩ => ⟨S4095, .i32⟩
  | .hbm, ⟨30, _⟩ => ⟨S4095, .i1⟩
  | .hbm, ⟨31, _⟩ => ⟨S_, .i32⟩
  | .hbm, ⟨32, _⟩ => ⟨S4095, .i32⟩
  | .hbm, ⟨33, _⟩ => ⟨S4095, .i32⟩
  | .hbm, ⟨34, _⟩ => ⟨S4095, .i32⟩
  | .hbm, ⟨35, _⟩ => ⟨S4095x1, .i32⟩
  | .hbm, ⟨36, _⟩ => ⟨S4095x1, .i32⟩
  | .hbm, ⟨37, _⟩ => ⟨S4095x2, .i32⟩
  | .hbm, ⟨38, _⟩ => ⟨S_, .f32⟩
  | .hbm, ⟨39, _⟩ => ⟨S4095, .f32⟩
  | .hbm, ⟨40, _⟩ => ⟨S4096x4096, .f32⟩
  | .hbm, ⟨41, _⟩ => ⟨S4096, .f32⟩
  | .hbm, ⟨42, _⟩ => ⟨S_, .f32⟩
  | .hbm, ⟨43, _⟩ => ⟨S_, .f32⟩
  | .hbm, ⟨44, _⟩ => ⟨S4096, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S4096x4096, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S2048x1, .i32⟩
  | .hbm, ⟨54, _⟩ => ⟨S2048, .i32⟩
  | .hbm, ⟨55, _⟩ => ⟨S_, .i32⟩
  | .hbm, ⟨56, _⟩ => ⟨S2048, .i32⟩
  | .hbm, ⟨57, _⟩ => ⟨S2048, .i1⟩
  | .hbm, ⟨58, _⟩ => ⟨S_, .i32⟩
  | .hbm, ⟨59, _⟩ => ⟨S2048, .i32⟩
  | .hbm, ⟨60, _⟩ => ⟨S2048, .i32⟩
  | .hbm, ⟨61, _⟩ => ⟨S2048, .i32⟩
  | .hbm, ⟨62, _⟩ => ⟨S2048x1, .i32⟩
  | .hbm, ⟨63, _⟩ => ⟨S_, .f32⟩
  | .hbm, ⟨64, _⟩ => ⟨S2048, .f32⟩
  | .hbm, ⟨65, _⟩ => ⟨S4096, .f32⟩
  | .hbm, ⟨66, _⟩ => ⟨S2048x1, .i32⟩
  | .hbm, ⟨67, _⟩ => ⟨S2048, .i32⟩
  | .hbm, ⟨68, _⟩ => ⟨S_, .i32⟩
  | .hbm, ⟨69, _⟩ => ⟨S2048, .i32⟩
  | .hbm, ⟨70, _⟩ => ⟨S2048, .i1⟩
  | .hbm, ⟨71, _⟩ => ⟨S_, .i32⟩
  | .hbm, ⟨72, _⟩ => ⟨S2048, .i32⟩
  | .hbm, ⟨73, _⟩ => ⟨S2048, .i32⟩
  | .hbm, ⟨74, _⟩ => ⟨S2048, .i32⟩
  | .hbm, ⟨75, _⟩ => ⟨S2048x1, .i32⟩
  | .hbm, ⟨76, _⟩ => ⟨S_, .f32⟩
  | .hbm, ⟨77, _⟩ => ⟨S2048, .f32⟩
  | .hbm, ⟨78, _⟩ => ⟨S4096, .f32⟩
  | .hbm, ⟨79, _⟩ => ⟨S2048x4095, .i32⟩
  | .hbm, ⟨80, _⟩ => ⟨S8386560, .i32⟩
  | .hbm, ⟨81, _⟩ => ⟨S2048x4095, .i32⟩
  | .hbm, ⟨82, _⟩ => ⟨S8386560, .i32⟩
  | .hbm, ⟨83, _⟩ => ⟨S_, .i32⟩
  | .hbm, ⟨84, _⟩ => ⟨S8386560, .i32⟩
  | .hbm, ⟨85, _⟩ => ⟨S8386560, .i1⟩
  | .hbm, ⟨86, _⟩ => ⟨S_, .i32⟩
  | .hbm, ⟨87, _⟩ => ⟨S8386560, .i32⟩
  | .hbm, ⟨88, _⟩ => ⟨S8386560, .i32⟩
  | .hbm, ⟨89, _⟩ => ⟨S8386560, .i32⟩
  | .hbm, ⟨90, _⟩ => ⟨S_, .i32⟩
  | .hbm, ⟨91, _⟩ => ⟨S8386560, .i32⟩
  | .hbm, ⟨92, _⟩ => ⟨S8386560, .i1⟩
  | .hbm, ⟨93, _⟩ => ⟨S_, .i32⟩
  | .hbm, ⟨94, _⟩ => ⟨S8386560, .i32⟩
  | .hbm, ⟨95, _⟩ => ⟨S8386560, .i32⟩
  | .hbm, ⟨96, _⟩ => ⟨S8386560, .i32⟩
  | .hbm, ⟨97, _⟩ => ⟨S8386560x1, .i32⟩
  | .hbm, ⟨98, _⟩ => ⟨S8386560x1, .i32⟩
  | .hbm, ⟨99, _⟩ => ⟨S8386560x2, .i32⟩
  | .hbm, ⟨100, _⟩ => ⟨S_, .f32⟩
  | .hbm, ⟨101, _⟩ => ⟨S8386560, .f32⟩
  | .hbm, ⟨102, _⟩ => ⟨S4096x4096, .f32⟩
  | .hbm, ⟨103, _⟩ => ⟨S4096, .f32⟩
  | .hbm, ⟨104, _⟩ => ⟨S_, .f32⟩
  | .hbm, ⟨105, _⟩ => ⟨S_, .f32⟩
  | .hbm, ⟨106, _⟩ => ⟨S4096, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S4096x4096, .f32⟩
  | .hbm, ⟨111, _⟩ => ⟨S_, .f32⟩
  | .hbm, ⟨112, _⟩ => ⟨S_, .f32⟩
  | .hbm, ⟨113, _⟩ => ⟨S_, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_c_2 : Ref sig .tc := ⟨.hbm, 13, rfl⟩
abbrev main_v5 : Ref sig .tc := ⟨.hbm, 14, rfl⟩
abbrev main_cst_3 : Ref sig .tc := ⟨.hbm, 15, rfl⟩
abbrev main_v6 : Ref sig .tc := ⟨.hbm, 16, rfl⟩
abbrev main_cst_4 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c_5 : Ref sig .tc := ⟨.hbm, 21, rfl⟩
abbrev main_v10 : Ref sig .tc := ⟨.hbm, 22, rfl⟩
abbrev main_v11 : Ref sig .tc := ⟨.hbm, 23, rfl⟩
abbrev main_c_6 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c_7 : Ref sig .tc := ⟨.hbm, 28, rfl⟩
abbrev main_v15 : Ref sig .tc := ⟨.hbm, 29, rfl⟩
abbrev main_v16 : Ref sig .tc := ⟨.hbm, 30, rfl⟩
abbrev main_c_8 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_9 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_10 : Ref sig .tc := ⟨.hbm, 42, rfl⟩
abbrev main_v26 : Ref sig .tc := ⟨.hbm, 43, rfl⟩
abbrev main_v27 : Ref sig .tc := ⟨.hbm, 44, rfl⟩
abbrev main_cst_11 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_12 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_13 : Ref sig .tc := ⟨.hbm, 55, rfl⟩
abbrev main_v36 : Ref sig .tc := ⟨.hbm, 56, rfl⟩
abbrev main_v37 : Ref sig .tc := ⟨.hbm, 57, rfl⟩
abbrev main_c_14 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_15 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_c_16 : Ref sig .tc := ⟨.hbm, 68, rfl⟩
abbrev main_v46 : Ref sig .tc := ⟨.hbm, 69, rfl⟩
abbrev main_v47 : Ref sig .tc := ⟨.hbm, 70, rfl⟩
abbrev main_c_17 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_18 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_c_19 : Ref sig .tc := ⟨.hbm, 83, rfl⟩
abbrev main_v58 : Ref sig .tc := ⟨.hbm, 84, rfl⟩
abbrev main_v59 : Ref sig .tc := ⟨.hbm, 85, rfl⟩
abbrev main_c_20 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_c_21 : Ref sig .tc := ⟨.hbm, 90, rfl⟩
abbrev main_v63 : Ref sig .tc := ⟨.hbm, 91, rfl⟩
abbrev main_v64 : Ref sig .tc := ⟨.hbm, 92, rfl⟩
abbrev main_c_22 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_cst_23 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_cst_24 : Ref sig .tc := ⟨.hbm, 104, rfl⟩
abbrev main_v74 : Ref sig .tc := ⟨.hbm, 105, rfl⟩
abbrev main_v75 : Ref sig .tc := ⟨.hbm, 106, rfl⟩
abbrev main_cst_25 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_cst_26 : Ref sig .tc := ⟨.hbm, 111, rfl⟩
abbrev main_v79 : Ref sig .tc := ⟨.hbm, 112, rfl⟩
abbrev main_v80 : Ref sig .tc := ⟨.hbm, 113, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S_S1 : S_.BroadcastsInDim S1 (![] : Fin 0 → Fin S1.rank)
  bcast_S_S4096x4096 : S_.BroadcastsInDim S4096x4096 (![] : Fin 0 → Fin S4096x4096.rank)
  slices_S4096_S4095_0 : S4096.Slices ![0] S4095
  slices_S4096_S4095_1 : S4096.Slices ![1] S4095
  bcast_S_S4095 : S_.BroadcastsInDim S4095 (![] : Fin 0 → Fin S4095.rank)
  bcast_S4095_S4095x1_0 : S4095.BroadcastsInDim S4095x1 (![0] : Fin 1 → Fin S4095x1.rank)
  concatenates_S4095x1_S4095x1_S4095x2_d1 : Shape.Concatenates [S4095x1, S4095x1] S4095x2 1
  reducesTo_S4096_S_d0 : S4096.ReducesTo [0] S_
  h_S_ : 0 < S_.numel
  reducesTo_S4096x4096_S_d0_1 : S4096x4096.ReducesTo [0, 1] S_
  slices_S2048x4096_S2048x1_0_0 : S2048x4096.Slices ![0, 0] S2048x1
  shapeCasts_S2048x1_S2048 : S2048x1.ShapeCasts S2048
  bcast_S_S2048 : S_.BroadcastsInDim S2048 (![] : Fin 0 → Fin S2048.rank)
  bcast_S2048_S2048x1_0 : S2048.BroadcastsInDim S2048x1 (![0] : Fin 1 → Fin S2048x1.rank)
  slices_S2048x4096_S2048x1_0_4095 : S2048x4096.Slices ![0, 4095] S2048x1
  slices_S2048x4096_S2048x4095_0_0 : S2048x4096.Slices ![0, 0] S2048x4095
  shapeCasts_S2048x4095_S8386560 : S2048x4095.ShapeCasts S8386560
  slices_S2048x4096_S2048x4095_0_1 : S2048x4096.Slices ![0, 1] S2048x4095
  bcast_S_S8386560 : S_.BroadcastsInDim S8386560 (![] : Fin 0 → Fin S8386560.rank)
  bcast_S8386560_S8386560x1_0 : S8386560.BroadcastsInDim S8386560x1 (![0] : Fin 1 → Fin S8386560x1.rank)
  concatenates_S8386560x1_S8386560x1_S8386560x2_d1 : Shape.Concatenates [S8386560x1, S8386560x1] S8386560x2 1
  scatter_S4096_S1_S__n_0_0_0_wf : ScatterDims.WF S4096 S1 S_ [] [0] [0] 0
  scatter_S4096x4096_S4095x2_S4095_n_01_01_1_wf : ScatterDims.WF S4096x4096 S4095x2 S4095 [] [0, 1] [0, 1] 1
  scatter_S4096_S2048x1_S2048_n_0_0_1_wf : ScatterDims.WF S4096 S2048x1 S2048 [] [0] [0] 1
  scatter_S4096x4096_S8386560x2_S8386560_n_01_01_1_wf : ScatterDims.WF S4096x4096 S8386560x2 S8386560 [] [0, 1] [0, 1] 1

variable [Facts₀]

def scatter_S4096_S1_S__n_0_0_0 : ScatterDims S4096 S1 S_ where
  updateWindowDims := []
  insertedWindowDims := [0]
  scatterDimsToOperandDims := [0]
  indexVectorDim := 0
  wf := scatter_S4096_S1_S__n_0_0_0_wf
def scatter_S4096x4096_S4095x2_S4095_n_01_01_1 : ScatterDims S4096x4096 S4095x2 S4095 where
  updateWindowDims := []
  insertedWindowDims := [0, 1]
  scatterDimsToOperandDims := [0, 1]
  indexVectorDim := 1
  wf := scatter_S4096x4096_S4095x2_S4095_n_01_01_1_wf
def scatter_S4096_S2048x1_S2048_n_0_0_1 : ScatterDims S4096 S2048x1 S2048 where
  updateWindowDims := []
  insertedWindowDims := [0]
  scatterDimsToOperandDims := [0]
  indexVectorDim := 1
  wf := scatter_S4096_S2048x1_S2048_n_0_0_1_wf
def scatter_S4096x4096_S8386560x2_S8386560_n_01_01_1 : ScatterDims S4096x4096 S8386560x2 S8386560 where
  updateWindowDims := []
  insertedWindowDims := [0, 1]
  scatterDimsToOperandDims := [0, 1]
  indexVectorDim := 1
  wf := scatter_S4096x4096_S8386560x2_S8386560_n_01_01_1_wf

class Facts : Prop extends Facts₀ where

variable [Facts]
-- ==== Proof.SumLaw.lean ====
/-
  Sums over a [4096, 4096] array, regrouped by blocks of 512 rows.

  A sum over all indices of a rank-2 array of 4096 × 4096 entries, in a commutative additive monoid, is the sum over
  the eight row blocks `t` of the sum over the 512 rows `r` of block `t` of the sum over the 4096 lanes `l` of the
  entry at row `512 t + r`, lane `l`. Only commutativity and associativity of `+` are used, so the law holds on the
  extended reals with no finiteness assumption. Second, a running total: a sequence that starts at `0 + s 0` and adds
  `s (n + 1)` at each step is the partial sum of `s`.
-/
import Idealize.ShloMosaic.PureOps.Ideal
import Idealize.ShloMosaic.Lib.ValueIdx

open scoped BigOperators

namespace Cert.BlockedSum

open Idealize.ShloMosaic Idealize.ShloMosaic.ValueIdx

/-- Row `r` of row block `k` of a 4096-row array (blocks of 512 rows): row `512 k + r`. Total in `k` (reduced modulo
    4096), so that partial sums over the blocks can be indexed by natural numbers; for `k < 8` nothing wraps. -/
def blockRow (k : ℕ) (r : Fin 512) : Fin 4096 := ⟨(512 * k + r.val) % 4096, Nat.mod_lt _ (by norm_num)⟩

theorem blockRow_val {k : ℕ} (hk : k < 8) (r : Fin 512) : (blockRow k r).val = 512 * k + r.val := by
  have := r.isLt
  show (512 * k + r.val) % 4096 = _
  exact Nat.mod_eq_of_lt (by omega)

/-- A sum over the 4096 rows is the sum over the eight blocks of the sum over each block's 512 rows. -/
theorem sum_rows {M : Type*} [AddCommMonoid M] (G : Fin 4096 → M) :
    ∑ a, G a = ∑ t : Fin 8, ∑ r : Fin 512, G (blockRow t.val r) := by
  have h := (Equiv.sum_comp (finProdFinEquiv (m := 8) (n := 512)) (fun a : Fin (8 * 512) => G a)).symm
  rw [Fintype.sum_prod_type] at h
  refine h.trans (Finset.sum_congr rfl fun t _ => Finset.sum_congr rfl fun r _ => congrArg G (Fin.ext ?_))
  rw [blockRow_val t.isLt]
  show r.val + 512 * t.val = _
  omega

/-- The whole-array sum, block by block, row by row, lane by lane. -/
theorem sum_blocks {M : Type*} [AddCommMonoid M] (f : (⟨2, ![4096, 4096]⟩ : Shape).Idx → M) :
    ∑ i, f i = ∑ t : Fin 8, ∑ r : Fin 512, ∑ l : Fin 4096, f (ix2 (blockRow t.val r) l) := by
  rw [sum_idx2, sum_rows]

/-- A running total that starts at `0 + s 0` and adds `s (n + 1)` at step `n + 1` is the partial sum of `s`. -/
theorem running_total {M : Type*} [AddCommMonoid M] (s : ℕ → M) (n : ℕ) (prev : M)
    (hprev : prev = ∑ k ∈ Finset.range (n + 1), s k) : prev + s (n + 1) = ∑ k ∈ Finset.range (n + 1 + 1), s k := by
  rw [Finset.sum_range_succ _ (n + 1), hprev]

theorem running_total_zero {M : Type*} [AddCommMonoid M] (s : ℕ → M) : 0 + s 0 = ∑ k ∈ Finset.range (0 + 1), s k := by
  rw [Finset.sum_range_one, zero_add]

/-- The partial sum over the first eight naturals is the sum over `Fin 8`. -/
theorem sum_range_eight {M : Type*} [AddCommMonoid M] (s : ℕ → M) :
    ∑ k ∈ Finset.range (7 + 1), s k = ∑ t : Fin 8, s t.val :=
  Finset.sum_range s

end Cert.BlockedSum
-- ==== Proof.LibKeepdims.lean ====
/-
  Column forms of a kept unit axis, read at an index: a vector `[a]` viewed as the column `[a, 1]` reads its entry at
  the row, and a column `[a, 1]` broadcast along its unit axis to `[a, b]` reads, at `(p, c)`, the column's entry
  in row `p`. Together with the row forms (`[a]` as `[1, a]`, and `[1, b]` over `[a, b]`) these read a sum that
  keeps its reduced axis and is then broadcast against a two-dimensional tile.
-/
import Idealize.ShloMosaic.Lib.Pipeline.Value
import Idealize.ShloMosaic.Lib.ValueIdx

noncomputable section

namespace Cert.LibKeepdims

open Idealize.ShloMosaic Idealize.ShloMosaic.ValueIdx

variable {α : Type}

/-- A vector `[a]` cast to the column `[a, 1]` reads, at `(i, u)`, the vector at `i`: both have row-major position `i`,
    the unit coordinate `u` being `0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`: the row coordinate is
    kept (or is `0` already when `a = 1`), the unit axis reads its only coordinate. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims

end
-- ==== Proof.TileTotal.lean ====
/-
  One grid step's arithmetic, read at the accumulator's only entry.

  The step multiplies two [512, 4096] tiles entry by entry, sums every row over its 4096 lanes (keeping the row axis as
  a column [512, 1]), sums that column over its 512 rows (keeping a [1, 1] cell), and adds the cell to the running
  [1, 1] accumulator. On the extended reals the new accumulator entry is therefore the old one plus the double sum over
  rows and lanes of the products.
-/
import Idealize.ShloMosaic.PureOps.Ideal.Laws
import Idealize.ShloMosaic.Lib.Pipeline.Value
import Idealize.ShloMosaic.Lib.ValueIdx
import proofs.«165297_j45019847197007_1_alg».proof.Proof.LibKeepdims

open scoped BigOperators

noncomputable section

namespace Cert.BlockedSum

open Idealize.ShloMosaic Idealize.ShloMosaic.ValueIdx

/-- Inserting lane `l` at axis 1 of the row index `(r)` gives the tile index `(r, l)`. -/
theorem lift_lane (h : Shape.Reduces ⟨2, ![512, 4096]⟩ [1] ⟨1, ![512]⟩) (r : Fin 512) (l : Fin 4096) :
    h.lift (ix1 r) l = ix2 r l :=
  funext fun a => Fin.ext (by match a with | ⟨0, _⟩ => rfl | ⟨1, _⟩ => rfl)

/-- Inserting row `r` at axis 0 of the cell index `(0)` of a column gives the column index `(r, 0)`. -/
theorem lift_row (h : Shape.Reduces ⟨2, ![512, 1]⟩ [0] ⟨1, ![1]⟩) (r : Fin 512) :
    h.lift (ix1 (0 : Fin 1)) r = ix2 r (0 : Fin 1) :=
  funext fun a => Fin.ext (by match a with | ⟨0, _⟩ => rfl | ⟨1, _⟩ => rfl)

/-- The row sums kept as a column, summed over the rows and kept as a cell: the cell holds the double sum. -/
theorem cell_eq_sum (p : FVec Ideal ⟨2, ![512, 4096]⟩ .f32)
    (hr1 : Shape.Reduces ⟨2, ![512, 4096]⟩ [1] ⟨1, ![512]⟩) (hc1 : Shape.ShapeCasts ⟨1, ![512]⟩ ⟨2, ![512, 1]⟩)
    (hr0 : Shape.Reduces ⟨2, ![512, 1]⟩ [0] ⟨1, ![1]⟩) (hc0 : Shape.ShapeCasts ⟨1, ![1]⟩ ⟨2, ![1, 1]⟩)
    (hφ : FKind.Formats .f32) (ha : (0x00000000#32 : BitVec 32) = FKind.add.neutral .f32 hφ) :
    shapeCast ⟨2, ![1, 1]⟩
        (multiReduction .add [0] ⟨1, ![1]⟩
          (shapeCast ⟨2, ![512, 1]⟩ (multiReduction .add [1] ⟨1, ![512]⟩ p 0x00000000#32 hr1 hφ ha) hc1)
          0x00000000#32 hr0 hφ ha) hc0 (ix2 (0 : Fin 1) (0 : Fin 1))
      = ∑ r : Fin 512, ∑ l : Fin 4096, p (ix2 r l) := by
  rw [Cert.LibKeepdims.shapeCast_a_a1_apply (a := 1) _ hc0 0 0, Ideal.multiReduction_add_single]
  refine Finset.sum_congr rfl fun r _ => ?_
  rw [lift_row hr0 r, Cert.LibKeepdims.shapeCast_a_a1_apply (a := 512) _ hc1 r 0, Ideal.multiReduction_add_single]
  exact Finset.sum_congr rfl fun l _ => congrArg p (lift_lane hr1 r l)

/-- One step: the accumulator's entry after the step is its entry before plus the tile's double sum of products. -/
theorem step_total (x y : FVec Ideal ⟨2, ![512, 4096]⟩ .f32) (acc : FVec Ideal ⟨2, ![1, 1]⟩ .f32)
    (hy : Shape.ShapeCasts ⟨2, ![512, 4096]⟩ ⟨2, ![512, 4096]⟩)
    (hr1 : Shape.Reduces ⟨2, ![512, 4096]⟩ [1] ⟨1, ![512]⟩) (hc1 : Shape.ShapeCasts ⟨1, ![512]⟩ ⟨2, ![512, 1]⟩)
    (hr0 : Shape.Reduces ⟨2, ![512, 1]⟩ [0] ⟨1, ![1]⟩) (hc0 : Shape.ShapeCasts ⟨1, ![1]⟩ ⟨2, ![1, 1]⟩)
    (hacc : Shape.ShapeCasts ⟨2, ![1, 1]⟩ ⟨2, ![1, 1]⟩)
    (hφ : FKind.Formats .f32) (ha : (0x00000000#32 : BitVec 32) = FKind.add.neutral .f32 hφ) :
    addf (shapeCast ⟨2, ![1, 1]⟩ acc hacc)
        (shapeCast ⟨2, ![1, 1]⟩
          (multiReduction .add [0] ⟨1, ![1]⟩
            (shapeCast ⟨2, ![512, 1]⟩
              (multiReduction .add [1] ⟨1, ![512]⟩ (mulf x (shapeCast ⟨2, ![512, 4096]⟩ y hy)) 0x00000000#32 hr1 hφ ha) hc1)
            0x00000000#32 hr0 hφ ha) hc0) (ix2 (0 : Fin 1) (0 : Fin 1))
      = acc (ix2 (0 : Fin 1) (0 : Fin 1)) + ∑ r : Fin 512, ∑ l : Fin 4096, x (ix2 r l) * y (ix2 r l) := by
  rw [addf_apply, cell_eq_sum, shapeCast_self, shapeCast_self]
  rfl

end Cert.BlockedSum

end
-- ==== Proof.KernelSum.lean ====
/-
  The kernel's accumulator, read as a value.

  The region runs eight grid points. Point `t` sees rows `512 t … 512 t + 511` of two [4096, 4096] arrays (the first
  argument, and an array the host operations before the region computed), multiplies the two tiles entry by entry,
  sums the products over lanes and then over rows, and adds the result to a [1, 1] accumulator that point 0 first
  sets to zero. The accumulator is written back once, after the last point. On the extended reals the accumulator
  cell after point `n` is therefore the sum of the contributions of row blocks `0 … n` (induction on the point), and
  the region's result array ends holding the sum over all eight blocks.
-/
import proofs.«165297_j45019847197007_1_alg».proof.Proof.Gen.KernelIdeal.Frame
import proofs.«165297_j45019847197007_1_alg».proof.Proof.SumLaw
import proofs.«165297_j45019847197007_1_alg».proof.Proof.TileTotal
import Idealize.ShloMosaic.Lib.Pipeline.Value
import Idealize.ShloMosaic.Lib.Tactic

open scoped BigOperators

noncomputable section

open Idealize.ShloMosaic Idealize.ShloMosaic.TcCoe Idealize.SL.Sem
open Idealize.ShloMosaic.Pipeline (Dat)

namespace Cert.KernelIdeal.Acc

open Cert.KernelIdeal Cert.KernelIdeal.Gen Idealize.ShloMosaic.ValueIdx Cert.BlockedSum

variable {F : FTy → Type} [FloatOps F]

theorem zero_offsets : (![0, 0] : Fin 2 → Nat) = fun _ => 0 := funext fun a => by fin_cases a <;> rfl

/-- A step that does not reset leaves, in the accumulator cell holding `acc`, the step's arithmetic on the two tiles
    and `acc`: its one store covers the cell, and its loads read the staging buffers whole. -/
theorem out_B (c : Dev nD) (i : grid0.Coords) (a1 : Memref sig .tc .vmem S512x4096 .f32) (h1 : a1.IsWhole)
    (a2 : Memref sig .tc .vmem S512x4096 .f32) (h2 : a2.IsWhole) (a3 : Memref sig .tc .vmem S1x1 .f32) (h3 : a3.IsWhole)
    (hc : ¬cond0_0 i) (x y : Vec F S512x4096 .f32) (acc : Vec F S1x1 .f32) :
    out0_B_2 c i a1 h1 a2 h2 a3 h3 hc x y acc = k0_pay2 x y acc := by
  unfold out0_B_2
  rw [View.read_writes_eq_canon _ _ _ (cover0_B_2 c i a1 h1 a2 h2 a3 h3 hc x y acc)]
  unfold kernelRun0_B
  dsimp only
  sl_unfold_words
  rw [View.canon_unit_zero zero_offsets]
  simp only [View.readAt_eq_ld, h1.read_unread, h2.read_unread, h3.read_unread,
    View.ld_unit_zero (S := S512x4096) zero_offsets, View.ld_unit_zero (S := S1x1) zero_offsets]

/-- The first step stores the zero cell, reads it back, and leaves the step's arithmetic on the two tiles and that
    zero cell: the later store covers the cell, and the value it read is the earlier store's. -/
theorem out_A (c : Dev nD) (i : grid0.Coords) (a1 : Memref sig .tc .vmem S512x4096 .f32) (h1 : a1.IsWhole)
    (a2 : Memref sig .tc .vmem S512x4096 .f32) (h2 : a2.IsWhole) (a3 : Memref sig .tc .vmem S1x1 .f32) (h3 : a3.IsWhole)
    (hc : cond0_0 i) (x y : Vec F S512x4096 .f32) :
    out0_A_2 c i a1 h1 a2 h2 a3 h3 hc x y = k0_pay2 x y k0_pay1 := by
  unfold out0_A_2
  rw [View.read_writes_eq_canon _ _ _ (cover0_A_2 c i a1 h1 a2 h2 a3 h3 hc x y)]
  unfold kernelRun0_A
  dsimp only
  sl_unfold_words
  rw [View.canon_cons_unit_zero (S := S1x1) zero_offsets, View.readCov_unit_zero (S := S1x1) _ zero_offsets]
  simp only [View.readAt_eq_ld, h1.read_unread, h2.read_unread,
    View.ld_unit_zero (S := S512x4096) zero_offsets]

variable (m : (ℓ : Loc nD τ sig) → Buf (Elt F) ℓ)

/-- The two factor arrays as the region finds them: the first argument, and the array the host operations before the
    region computed for the second operand. -/
abbrev lhsArr (c : Dev nD) : Vec F S4096x4096 .f32 := V m c main_arg0
abbrev rhsArr (c : Dev nD) : Vec F S4096x4096 .f32 := V m c main_v72
/-- Their tiles at grid point `t`. -/
abbrev lhsTile (c : Dev nD) (t : Fin cfg0.N) : Vec F S512x4096 .f32 := iblk m c 0 t
abbrev rhsTile (c : Dev nD) (t : Fin cfg0.N) : Vec F S512x4096 .f32 := iblk m c 1 t

theorem lt_eight (t : Fin cfg0.N) : t.val < 8 := lt_of_lt_of_eq t.isLt (show cfg0.N = 8 from N_0)

/-- Both input windows step down the rows with the grid point and never move along the lanes. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, win0_0.index t (0 : Fin 2) = t.val ∧ win0_0.index t (1 : Fin 2) = 0
    ∧ win0_1.index t (0 : Fin 2) = t.val ∧ win0_1.index t (1 : Fin 2) = 0)

/-- Entry `(r, l)` of the first operand's tile at point `t` is the array's entry at row `512 t + r`, lane `l`. -/
theorem lhsTile_apply (c : Dev nD) (t : Fin cfg0.N) (r : Fin 512) (l : Fin 4096) :
    lhsTile m c t (ix2 r l) = lhsArr m c (ix2 (blockRow t.val r) l) := by
  unfold lhsTile iblk
  rw [View.read_apply]
  show lhsArr m c (((cfg0.win 0).blk t).view.emb (ix2 r l)) = _
  refine congrArg (lhsArr m c) (funext fun a => Fin.ext ?_)
  obtain ⟨h0, h1, -, -⟩ := idx_facts t
  match a with
  | ⟨0, _⟩ =>
    show win0_0.index t 0 * 512 + 1 * r.val = (blockRow t.val r).val
    rw [h0, blockRow_val (lt_eight t)]; omega
  | ⟨1, _⟩ =>
    show win0_0.index t 1 * 4096 + 1 * l.val = l.val
    rw [h1]; omega

/-- The same for the second operand. -/
theorem rhsTile_apply (c : Dev nD) (t : Fin cfg0.N) (r : Fin 512) (l : Fin 4096) :
    rhsTile m c t (ix2 r l) = rhsArr m c (ix2 (blockRow t.val r) l) := by
  unfold rhsTile iblk
  rw [View.read_apply]
  show rhsArr m c (((cfg0.win 1).blk t).view.emb (ix2 r l)) = _
  refine congrArg (rhsArr m c) (funext fun a => Fin.ext ?_)
  obtain ⟨-, -, h0, h1⟩ := idx_facts t
  match a with
  | ⟨0, _⟩ =>
    show win0_1.index t 0 * 512 + 1 * r.val = (blockRow t.val r).val
    rw [h0, blockRow_val (lt_eight t)]; omega
  | ⟨1, _⟩ =>
    show win0_1.index t 1 * 4096 + 1 * l.val = l.val
    rw [h1]; omega

end Cert.KernelIdeal.Acc

/-! ## On the extended reals: the accumulator cell after every grid point -/

namespace Cert.KernelIdeal.Acc

open Cert.KernelIdeal Cert.KernelIdeal.Gen Idealize.ShloMosaic.ValueIdx Cert.BlockedSum

variable (m : (ℓ : Loc nD τ sig) → Buf (Elt Ideal) ℓ)

/-- The accumulator's only index. -/
abbrev cell : S1x1.Idx := ix2 (0 : Fin 1) (0 : Fin 1)

/-- Row block `k`'s contribution: the sum over its 512 rows and the 4096 lanes of the products of the two arrays. -/
def blockTerm (c : Dev nD) (k : ℕ) : EReal :=
  ∑ r : Fin 512, ∑ l : Fin 4096,
    (lhsArr m c (ix2 (blockRow k r) l) : EReal) * (rhsArr m c (ix2 (blockRow k r) l) : EReal)

/-- One step at point `t` adds row block `t`'s contribution to the cell. -/
theorem step_value (c : Dev nD) (t : Fin cfg0.N) (acc : Vec Ideal S1x1 .f32) :
    k0_pay2 (lhsTile m c t) (rhsTile m c t) acc cell = (acc cell : EReal) + blockTerm m c t.val := by
  unfold k0_pay2
  refine (step_total (lhsTile m c t) (rhsTile m c t) acc _ _ _ _ _ _ _ _).trans ?_
  unfold blockTerm
  simp only [lhsTile_apply, rhsTile_apply]

/-- The zero the first step stores is the real number zero. -/
theorem zero_cell : (k0_pay1 (F := Ideal) cell : EReal) = 0 := Ideal.ofBits_zero_f32

/-- After the first point the cell holds `0 +` the first block's contribution. -/
theorem cell_first (c : Dev nD) (t : Fin cfg0.N) (h0 : t.val % 8 = 0) :
    (outsAt0 m c t.val t.isLt cell : EReal) = 0 + blockTerm m c t.val := by
  rw [outsAt0_A m c t h0, out_A]
  refine (step_value m c t (k0_pay1 (F := Ideal))).trans ?_
  rw [zero_cell]

/-- After a later point the cell holds what the point before left plus this block's contribution. -/
theorem cell_later (c : Dev nD) (t : Fin cfg0.N) (h0 : ¬t.val % 8 = 0) :
    (outsAt0 m c t.val t.isLt cell : EReal)
      = (outsAt0 m c (t.val - 1) (Nat.lt_of_le_of_lt (Nat.sub_le _ _) t.isLt) cell : EReal) + blockTerm m c t.val := by
  rw [outsAt0_B m c t h0, out_B]
  exact step_value m c t _

/-- So after point `n` the cell holds the sum of the contributions of blocks `0 … n`: by induction on the point. -/
theorem cell_eq_partial (c : Dev nD) : ∀ (n : ℕ) (h : n < cfg0.N),
    (outsAt0 m c n h cell : EReal) = ∑ k ∈ Finset.range (n + 1), blockTerm m c k
  | 0, h => (cell_first m c ⟨0, h⟩ rfl).trans (running_total_zero _)
  | n + 1, h => by
    have hN := lt_eight ⟨n + 1, h⟩
    have hB : ¬(⟨n + 1, h⟩ : Fin cfg0.N).val % 8 = 0 := by dsimp only at hN ⊢; omega
    refine (cell_later m c ⟨n + 1, h⟩ hB).trans ?_
    show (outsAt0 m c n _ cell : EReal) + blockTerm m c (n + 1) = _
    exact running_total _ n _ (cell_eq_partial c n _)

/-- The whole sum: the eight blocks' contributions. -/
def total (c : Dev nD) : EReal := ∑ t : Fin 8, blockTerm m c t.val

/-- The [1, 1] accumulator has one index only. -/
theorem cell_unique (i j : S1x1.Idx) : i = j :=
  funext fun a => Fin.ext (by
    match a with
    | ⟨0, _⟩ => have hi : (i 0).val < 1 := (i 0).isLt; have hj : (j 0).val < 1 := (j 0).isLt; show (i 0).val = (j 0).val; omega
    | ⟨1, _⟩ => have hi : (i 1).val < 1 := (i 1).isLt; have hj : (j 1).val < 1 := (j 1).isLt; show (i 1).val = (j 1).val; omega)

/-- The one write-back, after the last point, writes the whole sum: the cell then holds the contributions of all eight
    blocks, and a constant array read through any block is that constant. -/
theorem flushed_cell (c : Dev nD) (t : Fin cfg0.N) (hf : (cfg0.win 2).flush t = true) :
    (dats m 0 c).flushed 2 t = ((cfg0.win 2).blk t).view.read (Elt Ideal) (fun _ => total m c) := by
  have h7 : t.val = 7 := by have := (flush0_2 t).mp hf; have := lt_eight t; omega
  obtain ⟨n, hn⟩ := t
  dsimp only at h7
  subst h7
  funext y
  rw [View.read_apply]
  show (dats m 0 c).after 2 ⟨7, hn⟩ _ = total m c
  exact ((congrFun (after0_2 m c ⟨7, hn⟩) _).trans (congrArg (outsAt0 m c 7 hn) (cell_unique _ cell))).trans
    ((cell_eq_partial m c 7 hn).trans (sum_range_eight _))

/-- So the result array of the region ends holding the whole sum: the last point's block is the array. -/
theorem final_cell (c : Dev nD) : (dats m 0 c).arrAt 2 cfg0.N = fun _ => total m c :=
  (dats m 0 c).arrAt_eq_of_cover 2 (fun _ => total m c) (flushed_cell m c) fun i =>
    ⟨t0_7, (flush0_2 t0_7).mpr rfl, by
      have hx := ((cfg0.win 2).blk t0_7).view.emb_mem_set (fun a => ⟨0, by fin_cases a <;> decide⟩)
      exact cell_unique _ i ▸ hx⟩

end Cert.KernelIdeal.Acc

end
-- ==== Proof.KernelOut.lean ====
/-
  The kernel program's two results, as values.

  After the region, the host adds the region's [1, 1] result (reshaped to a scalar) to two short sums it computes from
  arrays built before the region; the second result, computed wholly before the region, is left alone. Reading the
  lines after the region over the region's final arrays gives the first result as those two sums plus the whole sum
  of products, and the second as the value the host operations before the region computed.
-/
import proofs.«165297_j45019847197007_1_alg».proof.Proof.KernelSum
import Idealize.ShloMosaic.Lib.StableHlo.Run

open scoped BigOperators

noncomputable section

open Idealize.ShloMosaic Idealize.ShloMosaic.TcCoe Idealize.SL.Sem Idealize.ShloMosaic.StableHlo
open Idealize.ShloMosaic.Pipeline (Dat)

namespace Cert.KernelIdeal.Acc

open Cert.KernelIdeal Cert.KernelIdeal.Gen Idealize.ShloMosaic.ValueIdx Cert.BlockedSum

variable (m : (ℓ : Loc nD τ sig) → Buf (Elt Ideal) ℓ) (ρ : Dev nD → PrngReg)

/-- The two results as the host operations after the region leave them. -/
abbrev lossOut (c : Dev nD) : Buf (Elt Ideal) ((c.tc : Thread nD τ).loc main_v80) :=
  Pipeline.afterTail₀ cfgs (dats m) 0 (V0 m) [hostOps1] c main_v80
abbrev goldOut (c : Dev nD) : Buf (Elt Ideal) ((c.tc : Thread nD τ).loc main_v33) :=
  Pipeline.afterTail₀ cfgs (dats m) 0 (V0 m) [hostOps1] c main_v33

/-- The two rank-1 arguments, and the two rank-1 arrays the host operations before the region build for them. -/
abbrev startArg (c : Dev nD) : FVec Ideal S4096 .f32 := m ((c.tc : Thread nD τ).loc main_arg1)
abbrev endArg (c : Dev nD) : FVec Ideal S4096 .f32 := m ((c.tc : Thread nD τ).loc main_arg2)
abbrev startHist (c : Dev nD) : FVec Ideal S4096 .f32 := V m c main_v43
abbrev endHist (c : Dev nD) : FVec Ideal S4096 .f32 := V m c main_v53

/-- Every weakly fair execution ends with the two results at those values and the four arguments unchanged. -/
theorem run_results : θ_run defs (onTc (τ := τ) (main (F := Ideal))) ⟨m, fun _ => 0, ρ⟩ (fun r => ∀ c : Dev nD,
      r.2.mem ((c.tc : Thread nD τ).loc main_v80) = lossOut m c
      ∧ r.2.mem ((c.tc : Thread nD τ).loc main_v33) = goldOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c).2 main_v80 (Pipeline.mem_restRefs_of main_v80 (by decide) (by decide)),
      (h c).2 main_v33 (Pipeline.mem_restRefs_of main_v33 (by decide) (by decide)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

set_option maxHeartbeats 4000000 in
/-- The loss: the two short sums the host computes from arrays it built before the region, plus the region's result —
    which is the whole sum of products. -/
theorem lossOut_eq (c : Dev nD) : (lossOut m c : FVec Ideal S_ .f32)
    = addf (addf
        (Host.reduceAdd (mulf (startArg m c) (startHist m c)) (constant S_ .f32 0x00000000#32) reducesTo_S4096_S_d0 h_S_)
        (Host.reduceAdd (mulf (endArg m c) (endHist m c)) (constant S_ .f32 0x00000000#32) reducesTo_S4096_S_d0 h_S_))
      (fun _ => total m c) := by
  unfold lossOut Pipeline.afterTail₀
  simp only [hostOps1, List.flatten_cons, List.flatten_nil, List.append_nil]
  after_results
  have e1 : Pipeline.withArrays (cfgs 0).spec c (V0 m c) (fun w => (dats m 0 c).arrAt w (cfgs 0).N) (Proc.devRef .tc main_arg1)
      = m ((c.tc : Thread nD τ).loc main_arg1) :=
    (Pipeline.withArrays_of_ne _ c (V0 m c) _ main_arg1 (by decide)).trans (V_main_arg1 m c)
  have e2 : Pipeline.withArrays (cfgs 0).spec c (V0 m c) (fun w => (dats m 0 c).arrAt w (cfgs 0).N) (Proc.devRef .tc main_arg2)
      = m ((c.tc : Thread nD τ).loc main_arg2) :=
    (Pipeline.withArrays_of_ne _ c (V0 m c) _ main_arg2 (by decide)).trans (V_main_arg2 m c)
  have e43 : Pipeline.withArrays (cfgs 0).spec c (V0 m c) (fun w => (dats m 0 c).arrAt w (cfgs 0).N) (Proc.devRef .tc main_v43)
      = V m c main_v43 := Pipeline.withArrays_of_ne _ c (V0 m c) _ main_v43 (by decide)
  have e53 : Pipeline.withArrays (cfgs 0).spec c (V0 m c) (fun w => (dats m 0 c).arrAt w (cfgs 0).N) (Proc.devRef .tc main_v53)
      = V m c main_v53 := Pipeline.withArrays_of_ne _ c (V0 m c) _ main_v53 (by decide)
  have e73 : Pipeline.withArrays (cfgs 0).spec c (V0 m c) (fun w => (dats m 0 c).arrAt w (cfgs 0).N) (Proc.devRef .tc main_v73)
      = fun _ => total m c :=
    (Pipeline.withArrays_arr spec0 launch0.win.arr_inj c _ _ 2).trans (final_cell m c)
  rw [e1, e2, e43, e53, e73]
  rfl

/-- The gold score is computed before the region and nothing after the region touches it. -/
theorem goldOut_eq (c : Dev nD) : goldOut m c = V m c main_v33 := by
  unfold goldOut Pipeline.afterTail₀
  simp only [hostOps1, List.flatten_cons, List.flatten_nil, List.append_nil]
  after_results
  exact Pipeline.withArrays_of_ne _ c (V0 m c) _ main_v33 (by decide)

end Cert.KernelIdeal.Acc

end
-- ==== Proof.Bridge.lean ====
/-
  The kernel program's results are the reference program's stages.

  First, the host operations before the region are the reference's first 99 operations, so every array they build is
  the reference's array of the same name at the same launch contents. Second, the region's whole sum of products —
  eight row blocks, each summed over rows and lanes — is the reference's single sum over every index: a regrouping of
  one finite sum, valid on the extended reals because it uses only commutativity and associativity of addition.
  Together: the kernel's loss and gold score are the reference's, as functions of the four arguments.
-/
import proofs.«165297_j45019847197007_1_alg».proof.Proof.KernelOut
import proofs.«165297_j45019847197007_1_alg».proof.Proof.Gen.ReferenceIdeal.Read
import Idealize.ShloMosaic.Lib.StableHlo.Run

open scoped BigOperators

noncomputable section

open Idealize.ShloMosaic Idealize.ShloMosaic.TcCoe Idealize.SL.Sem Idealize.ShloMosaic.StableHlo

namespace Cert.KernelIdeal.Prefix

open Cert.KernelIdeal Cert.KernelIdeal.Gen Cert.KernelIdeal.Acc Idealize.ShloMosaic.ValueIdx Cert.BlockedSum

variable (m : (ℓ : Loc nD τ sig) → Buf (Elt Ideal) ℓ)

/-! The host operations before the region are, operation for operation, the reference program's first 99 operations.
    So each array the region or the later operations read, computed from the launch contents by the kernel program's
    own operations, is the reference program's array of the same name at the same arguments: both sides are the same
    composition of the same operations. -/

set_option maxHeartbeats 8000000 in
set_option maxRecDepth 8192 in
/-- The second operand of the region: the histogram of consecutive pairs over the gold mark. -/
theorem pairHist_eq (c : Dev nD) :
    V m c main_v72 = Cert.ReferenceIdeal.Read.val_main_v72 (F := Ideal) (m ((c.tc : Thread nD τ).loc main_arg3)) := by
  unfold V V0
  simp only [hostOps0, List.flatten_cons, List.flatten_nil, List.append_nil]
  after_results_simp
  rfl

set_option maxHeartbeats 8000000 in
set_option maxRecDepth 8192 in
/-- The histogram of first entries over the gold mark. -/
theorem startHist_eq (c : Dev nD) :
    V m c main_v43 = Cert.ReferenceIdeal.Read.val_main_v43 (F := Ideal) (m ((c.tc : Thread nD τ).loc main_arg3)) := by
  unfold V V0
  simp only [hostOps0, List.flatten_cons, List.flatten_nil, List.append_nil]
  after_results_simp
  rfl

set_option maxHeartbeats 8000000 in
set_option maxRecDepth 8192 in
/-- The histogram of last entries over the gold mark. -/
theorem endHist_eq (c : Dev nD) :
    V m c main_v53 = Cert.ReferenceIdeal.Read.val_main_v53 (F := Ideal) (m ((c.tc : Thread nD τ).loc main_arg3)) := by
  unfold V V0
  simp only [hostOps0, List.flatten_cons, List.flatten_nil, List.append_nil]
  after_results_simp
  rfl

set_option maxHeartbeats 8000000 in
set_option maxRecDepth 8192 in
/-- The gold score. -/
theorem gold_eq (c : Dev nD) :
    V m c main_v33 = Cert.ReferenceIdeal.Read.val_main_v33 (F := Ideal) (m ((c.tc : Thread nD τ).loc main_arg0))
      (m ((c.tc : Thread nD τ).loc main_arg1)) (m ((c.tc : Thread nD τ).loc main_arg2)) := by
  unfold V V0
  simp only [hostOps0, List.flatten_cons, List.flatten_nil, List.append_nil]
  after_results_simp
  rfl

/-! ## The two results are the reference program's, at the same arguments -/

/-- The kernel program's four arguments at launch, at their literal types. -/
abbrev bigramArg (c : Dev nD) : FVec Ideal S4096x4096 .f32 := m ((c.tc : Thread nD τ).loc main_arg0)
abbrev samplesArg (c : Dev nD) : IVec S2048x4096 32 := m ((c.tc : Thread nD τ).loc main_arg3)

theorem lhsArr_eq (c : Dev nD) : lhsArr m c = bigramArg m c := V_main_arg0 m c
theorem rhsArr_eq (c : Dev nD) : rhsArr m c = Cert.ReferenceIdeal.Read.val_main_v72 (F := Ideal) (samplesArg m c) :=
  pairHist_eq m c
theorem startHist_eq' (c : Dev nD) :
    startHist m c = Cert.ReferenceIdeal.Read.val_main_v43 (F := Ideal) (samplesArg m c) := startHist_eq m c
theorem endHist_eq' (c : Dev nD) :
    endHist m c = Cert.ReferenceIdeal.Read.val_main_v53 (F := Ideal) (samplesArg m c) := endHist_eq m c

/-- The eight blocks' contributions together are the sum over every index of the products: the blocks of 512 rows
    partition the rows, and addition on the extended reals is commutative and associative. -/
theorem total_eq (c : Dev nD) : total m c
    = ∑ j : S4096x4096.Idx,
        (bigramArg m c j : EReal) * (Cert.ReferenceIdeal.Read.val_main_v72 (F := Ideal) (samplesArg m c) j : EReal) := by
  unfold total blockTerm
  rw [sum_blocks fun j => (bigramArg m c j : EReal) * (Cert.ReferenceIdeal.Read.val_main_v72 (F := Ideal) (samplesArg m c) j : EReal)]
  rw [lhsArr_eq, rhsArr_eq]

/-- The reference's last sum (zero plus the sum over every index of the products) is the kernel's whole sum. -/
theorem refSum_eq (c : Dev nD) :
    Cert.ReferenceIdeal.Read.val_main_v79 (F := Ideal) (bigramArg m c) (samplesArg m c) = fun _ => total m c := by
  funext i
  rw [Cert.ReferenceIdeal.Read.val_main_v79_apply, total_eq]
  show Ideal.ofBits .f32 0x00000000#32 + _ = _
  rw [Ideal.ofBits_zero_f32, zero_add]
  rfl

/-- The loss the kernel program computes is the reference program's. -/
theorem loss_eq (c : Dev nD) : (lossOut m c : FVec Ideal S_ .f32)
    = Cert.ReferenceIdeal.Read.val_main_v80 (F := Ideal) (bigramArg m c) (startArg m c) (endArg m c) (samplesArg m c) := by
  rw [lossOut_eq, startHist_eq', endHist_eq']
  unfold Cert.ReferenceIdeal.Read.val_main_v80
  rw [refSum_eq]
  rfl

/-- The gold score the kernel program computes is the reference program's. -/
theorem goldScore_eq (c : Dev nD) : (goldOut m c : FVec Ideal S_ .f32)
    = Cert.ReferenceIdeal.Read.val_main_v33 (F := Ideal) (bigramArg m c) (startArg m c) (endArg m c) :=
  (goldOut_eq m c).trans (gold_eq m c)

end Cert.KernelIdeal.Prefix

end
-- ==== Proof.lean ====
/-
  The certificate's claims.

  The kernel program and the reference program run the same host operations up to the point where the histogram of
  consecutive sample pairs has been scattered onto the gold mark; they differ only in how the last sum — the sum over
  all 4096 × 4096 indices of `bigram` times that histogram — is taken. The reference takes it in one host reduction
  from zero. The kernel takes it in a region of eight grid points, each multiplying a tile of 512 rows of the two
  arrays, summing the products over lanes and then rows, and adding the tile's sum to a cell that starts at zero.
  Over the extended reals both are the same number: the eight row blocks partition the rows, and only
  commutativity and associativity of addition are needed, so the precondition is never opened. The two short sums
  (over `start` and `end`) and the gold score are computed by identical operations on both sides.

  The frames of the two kernel programs are the generated ones; the reference's frame and value are its generated
  run; `preserves` has no conjunct to prove (it is `True`).
-/
import proofs.«165297_j45019847197007_1_alg».proof.Defs
import proofs.«165297_j45019847197007_1_alg».proof.Proof.Gen.Kernel
import proofs.«165297_j45019847197007_1_alg».proof.Proof.Gen.Kernel.Frame
import proofs.«165297_j45019847197007_1_alg».proof.Proof.Gen.KernelIdeal
import proofs.«165297_j45019847197007_1_alg».proof.Proof.Gen.KernelIdeal.Frame
import proofs.«165297_j45019847197007_1_alg».proof.Proof.Gen.ReferenceIdeal
import proofs.«165297_j45019847197007_1_alg».proof.Proof.Gen.ReferenceIdeal.Run
import proofs.«165297_j45019847197007_1_alg».proof.Proof.Gen.ReferenceIdeal.Read
import proofs.«165297_j45019847197007_1_alg».proof.Proof.Gen.Pre_finite_inputs
import proofs.«165297_j45019847197007_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference is a host program: its generated run, with the results dropped. -/
theorem frame_reference : Cert.frame_ReferenceIdeal := fun m ρ _ =>
  (θ_run Cert.ReferenceIdeal.defs _ _).mono (fun _ h c => (h c).2.2)
    (Cert.ReferenceIdeal.Value.run (F := Ideal) m ρ)

/-- From memories that agree on the four arguments both programs end with the same loss and the same gold score:
    the kernel's results are the reference's stages at its own arguments, and the arguments agree. -/
theorem algebraic : Cert.algebraic_KernelIdeal_ReferenceIdeal := by
  intro m ρ m' ρ' _ hagree
  refine ⟨fun c => Cert.KernelIdeal.Acc.lossOut m c, fun c => Cert.KernelIdeal.Acc.goldOut m c,
    Cert.KernelIdeal.Acc.run_results m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v80_eq, (hagree c).1, (hagree c).2.1, (hagree c).2.2.1, (hagree c).2.2.2]
    exact (Cert.KernelIdeal.Prefix.loss_eq m c).symm
  · rw [(hagree c).1, (hagree c).2.1, (hagree c).2.2.1]
    exact (Cert.KernelIdeal.Prefix.goldScore_eq m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
